-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S4096x1024 .f32) (main_arg6 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S1024x4096 .f32) (main_arg2 : FVec F S4096 .f32) (main_arg3 : FVec F S4096x4096 .f32) (main_arg4 : FVec F S4096 .f32) (main_arg5 : FVec F S4096x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S16384x1024 : Shape := ⟨2, ![16384, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S1024x1024 : Shape := ⟨2, ![1024, 1024]⟩
abbrev S4096x512 : Shape := ⟨2, ![4096, 512]⟩
abbrev S1x512 : Shape := ⟨2, ![1, 512]⟩
abbrev S512x1024 : Shape := ⟨2, ![512, 1024]⟩
abbrev S512x4096 : Shape := ⟨2, ![512, 4096]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1x4096, .f32⟩
  | .hbm, ⟨10, _⟩ => ⟨S1x4096, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1x4096, .f32⟩
  | .local _ .vmem, ⟨4, _⟩ => ⟨S4096x512, .f32⟩
  | .local _ .vmem, ⟨5, _⟩ => ⟨S4096x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1024x4096_S1024x1024_0_0 : ∀ a, (![0, 0] : Fin 2 → Nat) a + S1024x1024.size a ≤ S1024x4096.size a
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S1024x1024 : S1x1024.Broadcasts S1024x1024
  packedbf16_S1024x4096_S1024x1024_0_0 : (Rect.unit (s := S1024x4096) ![0, 0] S1024x1024.size inb_S1024x4096_S1024x1024_0_0).PackedRows (EltTy.packing .bf16)
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  packedbf16_S1024x4096_S1024x1024_0_1024 : (Rect.unit (s := S1024x4096) ![0, 1024] S1024x1024.size inb_S1024x4096_S1024x1024_0_1024).PackedRows (EltTy.packing .bf16)
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  packedbf16_S1024x4096_S1024x1024_0_2048 : (Rect.unit (s := S1024x4096) ![0, 2048] S1024x1024.size inb_S1024x4096_S1024x1024_0_2048).PackedRows (EltTy.packing .bf16)
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  packedbf16_S1024x4096_S1024x1024_0_3072 : (Rect.unit (s := S1024x4096) ![0, 3072] S1024x1024.size inb_S1024x4096_S1024x1024_0_3072).PackedRows (EltTy.packing .bf16)
  inb_S1x1024_S1x1024_0_0 : ∀ a, (![0, 0] : Fin 2 → Nat) a + S1x1024.size a ≤ S1x1024.size a
  inb_S4096x512_S4096x512_0_0 : ∀ a, (![0, 0] : Fin 2 → Nat) a + S4096x512.size a ≤ S4096x512.size a
  h_S4096x512 : 0 < S4096x512.numel
  inb_S1024x4096_S512x4096_0_0 : ∀ a, (![0, 0] : Fin 2 → Nat) a + S512x4096.size a ≤ S1024x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  inb_S512x1024_S512x1024_0_0 : ∀ a, (![0, 0] : Fin 2 → Nat) a + S512x1024.size a ≤ S512x1024.size a
  inb_S1024x4096_S512x4096_512_0 : ∀ a, (![512, 0] : Fin 2 → Nat) a + S512x4096.size a ≤ S1024x4096.size a
  inb_S1024x1024_S512x1024_512_0 : ∀ a, (![512, 0] : Fin 2 → Nat) a + S512x1024.size a ≤ S1024x1024.size a
  dot_S1024x1024_S1024x1024_S1024x1024_1_0_0_1_n_n_wf : DotDims.WF S1024x1024 S1024x1024 S1024x1024 [1] [0] [0] [1] [] []
  dot_S512x4096_S4096x512_S512x512_1_0_0_1_n_n_wf : DotDims.WF S512x4096 S4096x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x4096.size a
  hwx0_3 : ∀ i : grid0.Coords, EltTy.bits .f32 = 32 ∨ (Rect.block (s := S4096x4096) S4096x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .f32 = 32 ∨ (Rect.block (s := S16384x1024) S1024x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S16384x4096 : Shape := ⟨2, ![16384, 4096]⟩
abbrev S1x4096 : Shape := ⟨2, ![1, 4096]⟩
abbrev S_ : Shape := ⟨0, ![]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S16384x1024, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x4096_S4096x4096_S16384x4096_1_0_0_1_n_n_wf : DotDims.WF S16384x4096 S4096x4096 S16384x4096 [1] [0] [0] [1] [] []
  dot_S16384x4096_S4096x1024_S16384x1024_1_0_0_1_n_n_wf : DotDims.WF S16384x4096 S4096x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.Spec.lean ====
/-
  The function both programs compute, index by index over the extended reals.

  With `x` a `16384 × 1024` matrix and a three-layer perceptron (weights `w1, w2, w3`, biases `b1, b2, b3`, hidden
  width `4096`, the positive part after the first two layers), the result is `x + MLP(d)` where `d` is the doubled
  input. One program doubles by the product with the constant `2`, the other by `x + x`; one adds the third layer's
  bias to `x` first and then accumulates the last product over eight blocks of `512` hidden units, the other sums
  over all `4096` hidden units at once and adds the bias afterwards. Both forms are stated here, over a doubled input
  given as a parameter; that they agree is `Proof/Algebra.lean`.
-/
import Idealize.ShloMosaic.PureOps.Ideal
import Idealize.ShloMosaic.Lib.ValueIdx

noncomputable section

open scoped BigOperators

namespace Cert.Mlp

open Idealize.ShloMosaic Idealize.ShloMosaic.ValueIdx

/-- The seven argument arrays, as extended-real functions of their indices. -/
structure Args where
  x  : (⟨2, ![16384, 1024]⟩ : Shape).Idx → EReal
  w1 : (⟨2, ![1024, 4096]⟩ : Shape).Idx → EReal
  b1 : (⟨1, ![4096]⟩ : Shape).Idx → EReal
  w2 : (⟨2, ![4096, 4096]⟩ : Shape).Idx → EReal
  b2 : (⟨1, ![4096]⟩ : Shape).Idx → EReal
  w3 : (⟨2, ![4096, 1024]⟩ : Shape).Idx → EReal
  b3 : (⟨1, ![1024]⟩ : Shape).Idx → EReal

/-- The constant `2.0` as the kernel spells it. -/
abbrev two : EReal := Ideal.ofBits .f32 0x40000000#32

/-- The doubled input as a product with `2`. -/
def dblMul (A : Args) (r : Fin 16384) (l : Fin 1024) : EReal := two * A.x (ix2 r l)

/-- The doubled input as a sum. -/
def dblAdd (A : Args) (r : Fin 16384) (l : Fin 1024) : EReal := A.x (ix2 r l) + A.x (ix2 r l)

/-- First hidden layer: the positive part of `d · w1 + b1`. -/
def hid1 (A : Args) (d : Fin 16384 → Fin 1024 → EReal) (r : Fin 16384) (k : Fin 4096) : EReal :=
  max (∑ l : Fin 1024, d r l * A.w1 (ix2 l k) + A.b1 (ix1 k)) 0

/-- Second hidden layer: the positive part of `h1 · w2 + b2`. -/
def hid2 (A : Args) (d : Fin 16384 → Fin 1024 → EReal) (r : Fin 16384) (n : Fin 4096) : EReal :=
  max (∑ k : Fin 4096, hid1 A d r k * A.w2 (ix2 k n) + A.b2 (ix1 n)) 0

/-- Hidden unit `k` of block `j` (eight blocks of `512`). -/
def unit (j : Fin 8) (k : Fin 512) : Fin 4096 := ⟨512 * j.val + k.val, by have := j.isLt; have := k.isLt; omega⟩

/-- Block `j`'s share of the last product. -/
def part (A : Args) (d : Fin 16384 → Fin 1024 → EReal) (r : Fin 16384) (q : Fin 1024) (j : Fin 8) : EReal :=
  ∑ k : Fin 512, hid2 A d r (unit j k) * A.w3 (ix2 (unit j k) q)

/-- The running value after block `j`: `x + b3`, then the blocks' shares added one after the other. -/
def acc (A : Args) (d : Fin 16384 → Fin 1024 → EReal) (r : Fin 16384) (q : Fin 1024) : (j : ℕ) → j < 8 → EReal
  | 0, h => (A.x (ix2 r q) + A.b3 (ix1 q)) + part A d r q ⟨0, h⟩
  | j + 1, h => acc A d r q j (Nat.lt_of_succ_lt h) + part A d r q ⟨j + 1, h⟩

/-- The blockwise form, the input doubled by the product with `2`. -/
def blockwise (A : Args) (r : Fin 16384) (q : Fin 1024) : EReal := acc A (dblMul A) r q 7 (by decide)

/-- The whole-sum form, the input doubled by the sum. -/
def whole (A : Args) (r : Fin 16384) (q : Fin 1024) : EReal :=
  A.x (ix2 r q) + (∑ k : Fin 4096, hid2 A (dblAdd A) r k * A.w3 (ix2 k q) + A.b3 (ix1 q))

end Cert.Mlp

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.Payloads.lean ====
/-
  The kernel body's arithmetic, read at an entry over the extended reals.

  Every stored value of the body is built from three kinds of step: a matrix product into a zero accumulator, the
  addition of a bias row broadcast down the rows, and the positive part (the maximum with zero); a change of float
  format is the identity on the extended reals and a reshape to the same shape is the identity. So a stored value read
  at `(p, n)` is `layer a b bias p n = max (∑ k, a (p, k) · b (k, n) + bias (0, n)) 0` of its operands, or an
  accumulator entry plus one more product's entry.
-/
import proofs.«111442_g14912126452479_cont_week2b_829_34_alg».proof.Proof.Gen.KernelIdeal.Skeleton
import proofs.«111442_g14912126452479_cont_week2b_829_34_alg».proof.Proof.Spec
import proofs.«111442_g14912126452479_cont_week2b_829_34_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.Mlp

/-- The positive part of `a · b + bias` at entry `(p, n)`: one layer of the perceptron, the bias a row. -/
def layer {M K N : ℕ} (a : (⟨2, ![M, K]⟩ : Shape).Idx → EReal) (b : (⟨2, ![K, N]⟩ : Shape).Idx → EReal)
    (bias : (⟨2, ![1, N]⟩ : Shape).Idx → EReal) (p : Fin M) (n : Fin N) : EReal :=
  max (∑ k : Fin K, a (ix2 p k) * b (ix2 k n) + bias (ix2 (0 : Fin 1) n)) 0

/-- The doubled input block: the product with the constant `2`; the change of format is the identity. -/
theorem pay2_apply (v37 : Vec Ideal S1024x1024 .f32) (y : S1024x1024.Idx) : k0_pay2 (F := Ideal) v37 y = two * v37 y := rfl

/-- First layer, column chunk 0: the layer of the doubled block, the chunk of the weights and the chunk of the bias row. -/
theorem pay3_apply (v37 : Vec Ideal S1024x1024 .f32) (v41 : Vec Ideal S1024x1024 .bf16) (v44 : Vec Ideal S1x1024 .f32)
    (p : Fin 1024) (k : Fin 1024) :
    k0_pay3 (F := Ideal) v37 v41 v44 (ix2 p k) = layer (fun y => two * v37 y) v41 v44 p k := by
  unfold k0_pay3 layer
  simp only [shapeCast_self]
  show max (FloatOps.matmul dot_S1024x1024_S1024x1024_S1024x1024_1_0_0_1_n_n none (k0_pay2 v37) v41 (constant S1024x1024 .f32 0#32) (ix2 p k)
    + broadcastTo S1024x1024 v44 broadcasts_S1x1024_S1024x1024 (ix2 p k)) (Ideal.ofBits .f32 0#32) = _
  rw [Ideal.matmul_constant_zero_apply, Cert.LibPlainDot.plain_sum _ rfl rfl rfl rfl rfl rfl, broadcastTo_1b_ab_apply, Ideal.ofBits_zero_f32]
  rfl

/-- First layer, column chunk 1. -/
theorem pay4_apply (v37 : Vec Ideal S1024x1024 .f32) (v54 : Vec Ideal S1024x1024 .bf16) (v57 : Vec Ideal S1x1024 .f32)
    (p : Fin 1024) (k : Fin 1024) :
    k0_pay4 (F := Ideal) v37 v54 v57 (ix2 p k) = layer (fun y => two * v37 y) v54 v57 p k := by
  unfold k0_pay4 layer
  simp only [shapeCast_self]
  show max (FloatOps.matmul dot_S1024x1024_S1024x1024_S1024x1024_1_0_0_1_n_n none (k0_pay2 v37) v54 (constant S1024x1024 .f32 0#32) (ix2 p k)
    + broadcastTo S1024x1024 v57 broadcasts_S1x1024_S1024x1024 (ix2 p k)) (Ideal.ofBits .f32 0#32) = _
  rw [Ideal.matmul_constant_zero_apply, Cert.LibPlainDot.plain_sum _ rfl rfl rfl rfl rfl rfl, broadcastTo_1b_ab_apply, Ideal.ofBits_zero_f32]
  rfl

/-- First layer, column chunk 2: the product is formed in one value and the bias and positive part in the next. -/
theorem pay65_apply (v37 : Vec Ideal S1024x1024 .f32) (v67 : Vec Ideal S1024x1024 .bf16) (v70 : Vec Ideal S1x1024 .f32)
    (p : Fin 1024) (k : Fin 1024) :
    k0_pay6 (F := Ideal) (k0_pay5 v37 v67) v70 (ix2 p k) = layer (fun y => two * v37 y) v67 v70 p k := by
  unfold k0_pay6 k0_pay5 layer
  simp only [shapeCast_self]
  show max (FloatOps.matmul dot_S1024x1024_S1024x1024_S1024x1024_1_0_0_1_n_n none (k0_pay2 v37) v67 (constant S1024x1024 .f32 0#32) (ix2 p k)
    + broadcastTo S1024x1024 v70 broadcasts_S1x1024_S1024x1024 (ix2 p k)) (Ideal.ofBits .f32 0#32) = _
  rw [Ideal.matmul_constant_zero_apply, Cert.LibPlainDot.plain_sum _ rfl rfl rfl rfl rfl rfl, broadcastTo_1b_ab_apply, Ideal.ofBits_zero_f32]
  rfl

/-- First layer, column chunk 3, over the doubled block as a value of its own. -/
theorem pay7_apply (v40 : FVec Ideal S1024x1024 .bf16) (v80 : Vec Ideal S1024x1024 .bf16) (v83 : Vec Ideal S1x1024 .f32)
    (p : Fin 1024) (k : Fin 1024) :
    k0_pay7 (F := Ideal) v40 v80 v83 (ix2 p k) = layer v40 v80 v83 p k := by
  unfold k0_pay7 layer
  simp only [shapeCast_self]
  show max (FloatOps.matmul (F := Ideal) dot_S1024x1024_S1024x1024_S1024x1024_1_0_0_1_n_n none v40 (v80 : FVec Ideal S1024x1024 .bf16) (constant S1024x1024 .f32 0#32) (ix2 p k)
    + broadcastTo S1024x1024 v83 broadcasts_S1x1024_S1024x1024 (ix2 p k)) (Ideal.ofBits .f32 0#32) = _
  rw [Ideal.matmul_constant_zero_apply, Cert.LibPlainDot.plain_sum _ rfl rfl rfl rfl rfl rfl, broadcastTo_1b_ab_apply, Ideal.ofBits_zero_f32]

/-- The output block's first value: the input block plus the last bias row. -/
theorem pay8_apply (v93 : Vec Ideal S1024x1024 .f32) (v94 : Vec Ideal S1x1024 .f32) (p : Fin 1024) (q : Fin 1024) :
    k0_pay8 (F := Ideal) v93 v94 (ix2 p q) = v93 (ix2 p q) + v94 (ix2 (0 : Fin 1) q) := by
  unfold k0_pay8
  simp only [shapeCast_self]
  show v93 (ix2 p q) + broadcastTo S1024x1024 v94 broadcasts_S1x1024_S1024x1024 (ix2 p q) = _
  rw [broadcastTo_1b_ab_apply]

/-- Second layer on a half tile of rows: the layer of the first hidden rows, the weights' column block and its bias. -/
theorem pay11_apply (v3 : Vec Ideal S4096x512 .f32) (v21 : Vec Ideal S512x4096 .bf16) (v23 : Vec Ideal S1x512 .f32)
    (p : Fin 512) (n : Fin 512) :
    k0_pay11 (F := Ideal) v3 v21 v23 (ix2 p n) = layer v21 v3 v23 p n := by
  unfold k0_pay11 k0_pay9 layer
  simp only [shapeCast_self]
  show max (FloatOps.matmul (F := Ideal) dot_S512x4096_S4096x512_S512x512_1_0_0_1_n_n none (v21 : FVec Ideal S512x4096 .bf16) (v3 : FVec Ideal S4096x512 .bf16) (constant S512x512 .f32 0#32) (ix2 p n)
    + broadcastTo S512x512 v23 broadcasts_S1x512_S512x512 (ix2 p n)) (Ideal.ofBits .f32 0#32) = _
  rw [Ideal.matmul_constant_zero_apply, Cert.LibPlainDot.plain_sum _ rfl rfl rfl rfl rfl rfl, broadcastTo_1b_ab_apply, Ideal.ofBits_zero_f32]

/-- The accumulation on a half tile: the accumulator's entry plus the entry of the product of the second hidden
    rows with the last weights' row block. -/
theorem pay1_apply (v29 : FVec Ideal S512x512 .bf16) (v30 : Vec Ideal S512x1024 .f32) (v32 : Vec Ideal S512x1024 .bf16)
    (p : Fin 512) (q : Fin 1024) :
    k0_pay1 (F := Ideal) v29 v30 v32 (ix2 p q) = v30 (ix2 p q) + ∑ n : Fin 512, v29 (ix2 p n) * v32 (ix2 n q) := by
  unfold k0_pay1
  simp only [shapeCast_self]
  show v30 (ix2 p q) + FloatOps.matmul (F := Ideal) dot_S512x512_S512x1024_S512x1024_1_0_0_1_n_n none v29 (v32 : FVec Ideal S512x1024 .bf16) (constant S512x1024 .f32 0#32) (ix2 p q) = _
  rw [Ideal.matmul_constant_zero_apply, Cert.LibPlainDot.plain_sum _ rfl rfl rfl rfl rfl rfl]

/-- The same with the second layer formed inside the stored value. -/
theorem pay10_apply (v3 : Vec Ideal S4096x512 .f32) (v5 : Vec Ideal S512x4096 .bf16) (v7 : Vec Ideal S1x512 .f32)
    (v14 : Vec Ideal S512x1024 .f32) (v16 : Vec Ideal S512x1024 .bf16) (p : Fin 512) (q : Fin 1024) :
    k0_pay10 (F := Ideal) v3 v5 v7 v14 v16 (ix2 p q)
      = v14 (ix2 p q) + ∑ n : Fin 512, layer v5 v3 v7 p n * v16 (ix2 n q) := by
  have h := pay1_apply (k0_pay11 (F := Ideal) v3 v5 v7) v14 v16 p q
  have e : k0_pay10 (F := Ideal) v3 v5 v7 v14 v16 = k0_pay1 (F := Ideal) (k0_pay11 (F := Ideal) v3 v5 v7) v14 v16 := rfl
  rw [e, h]
  exact congrArg (v14 (ix2 p q) + ·) (Finset.sum_congr rfl fun n _ => by rw [pay11_apply])

end Cert.KernelIdeal.Pay
end
-- ==== Proof.Pieces.lean ====
/-
  What each of the two cases of the kernel body leaves in the output block and in the scratch, as functions of the
  block index over the extended reals.

  The body's stores are rectangles of the staging buffers; what a list of stores leaves is, index by index, the value
  of the latest store that covers the index. The scratch is filled by four stores of `1024` columns each; the output
  block by one store of the whole block followed by (or, at a later point, just by) two stores of `512` rows each,
  whose values read the block and the scratch back through the same rectangles.
-/
import proofs.«111442_g14912126452479_cont_week2b_829_34_alg».proof.Proof.Gen.KernelIdeal.Frame
import proofs.«111442_g14912126452479_cont_week2b_829_34_alg».proof.Proof.Payloads
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen Cert.KernelIdeal.Pay Cert.Mlp

/-- A unit-stride rectangle of a matrix places its entry `(a, b)` at `(o0 + a, o1 + b)`. -/
theorem emb_unit_ix2 {M N m n : ℕ} (o0 o1 : ℕ)
    (inb : ∀ a, (![o0, o1] : Fin 2 → ℕ) a + (![m, n] : Fin 2 → ℕ) a ≤ (⟨2, ![M, N]⟩ : Shape).size a)
    (a : Fin m) (b : Fin n) (h0 : o0 + a.val < M) (h1 : o1 + b.val < N) :
    (Rect.unit (s := ⟨2, ![M, N]⟩) ![o0, o1] ![m, n] inb).emb (ix2 a b) = ix2 ⟨o0 + a.val, h0⟩ ⟨o1 + b.val, h1⟩ := by
  funext d
  apply Fin.ext
  match d with
  | ⟨0, _⟩ => show o0 + 1 * a.val = o0 + a.val; omega
  | ⟨1, _⟩ => show o1 + 1 * b.val = o1 + b.val; omega

/-- The first hidden layer of a column chunk of the weights and of the bias row is the chunk of the first hidden layer. -/
theorem layer_chunk (d : (⟨2, ![1024, 1024]⟩ : Shape).Idx → EReal) (x1 : Vec Ideal S1024x4096 .bf16) (x2 : Vec Ideal S1x4096 .f32)
    (o : ℕ) (inb1 : ∀ a, (![0, o] : Fin 2 → ℕ) a + S1024x1024.size a ≤ S1024x4096.size a)
    (inb2 : ∀ a, (![0, o] : Fin 2 → ℕ) a + S1x1024.size a ≤ S1x4096.size a)
    (a : Fin 1024) (b : Fin 1024) (h : o + b.val < 4096) :
    layer d (View.ld x1 (Rect.unit (s := S1024x4096) ![0, o] S1024x1024.size inb1)) (View.ld x2 (Rect.unit (s := S1x4096) ![0, o] S1x1024.size inb2)) a b
      = layer d x1 x2 a ⟨o + b.val, h⟩ := by
  unfold layer
  have e1 : ∀ l : Fin 1024, View.ld x1 (Rect.unit (s := S1024x4096) ![0, o] S1024x1024.size inb1) (ix2 l b) = x1 (ix2 l ⟨o + b.val, h⟩) := by
    intro l
    show x1 ((Rect.unit (s := S1024x4096) ![0, o] S1024x1024.size inb1).emb (ix2 l b)) = _
    rw [emb_unit_ix2 0 o inb1 l b (by have := l.isLt; omega) h]
    exact congrArg x1 (congrArg (fun z => ix2 z _) (Fin.ext (by show 0 + l.val = l.val; omega)))
  have e2 : View.ld x2 (Rect.unit (s := S1x4096) ![0, o] S1x1024.size inb2) (ix2 (0 : Fin 1) b) = x2 (ix2 (0 : Fin 1) ⟨o + b.val, h⟩) := by
    show x2 ((Rect.unit (s := S1x4096) ![0, o] S1x1024.size inb2).emb (ix2 (0 : Fin 1) b)) = _
    rw [emb_unit_ix2 0 o inb2 (0 : Fin 1) b (by decide) h]
    rfl
  rw [e2]
  exact congrArg (fun s => max (s + x2 (ix2 (0 : Fin 1) ⟨o + b.val, h⟩)) 0) (Finset.sum_congr rfl fun l _ => by rw [e1 l])

theorem hz : (![0, 0] : Fin 2 → Nat) = fun _ => 0 := funext fun a => by fin_cases a <;> rfl

/-- WHAT THE FIRST POINT OF A BATCH TILE LEAVES IN THE SCRATCH: the first hidden layer of the doubled input block,
    all `4096` columns — four stores of `1024` columns each, every one the same function of the scratch's index. -/
theorem sout_A (c : Dev nD) (i : grid0.Coords) (arg2 : Memref sig .tc .vmem S1024x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .f32) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole) (hc0 : cond0_0 i) (x0 : Vec Ideal S1024x1024 .f32) (x1 : Vec Ideal S1024x4096 .bf16) (x2 : Vec Ideal S1x4096 .f32) (x3 : Vec Ideal S4096x512 .f32) (x4 : Vec Ideal S1x512 .f32) (x5 : Vec Ideal S512x1024 .bf16) (x6 : Vec Ideal S1x1024 .f32) (p : Fin 1024) (k : Fin 4096) :
    sout0_A_0 c i arg2 harg2 arg3 harg3 arg4 harg4 arg5 harg5 arg6 harg6 arg7 harg7 arg8 harg8 arg9 harg9 arg10 harg10 hc0 x0 x1 x2 x3 x4 x5 x6 (ix2 p k) = layer (fun y => two * x0 y) x1 x2 p k := by
  unfold sout0_A_0
  rw [View.read_writes_junk_eq_canon]
  refine View.canon_apply_of_pieces (fun y : S1024x4096.Idx => layer (fun y => two * x0 y) x1 x2 (y 0) (y 1)) _ ?_ (ix2 p k)
    (scover0_A_0 c i arg2 harg2 arg3 harg3 arg4 harg4 arg5 harg5 arg6 harg6 arg7 harg7 arg8 harg8 arg9 harg9 arg10 harg10 hc0 x0 x1 x2 x3 x4 x5 x6 (ix2 p k))
  unfold kernelRun0_A
  dsimp only
  sl_unfold_words
  intro pc hpc x
  simp only [View.readAt_eq_ld, harg2.read_unread, harg3.read_unread, harg4.read_unread, View.ld_unit_zero (S := S1024x1024) hz] at hpc
  simp only [List.mem_cons, List.not_mem_nil, or_false] at hpc
  rcases hpc with rfl | rfl | rfl | rfl
  · obtain ⟨a, b, rfl⟩ : ∃ (a : Fin 1024) (b : Fin 1024), x = ix2 a b := ⟨x 0, x 1, eq_ix2 x⟩
    refine (pay7_apply _ _ _ a b).trans ?_
    refine (layer_chunk (fun y => two * x0 y) x1 x2 3072 _ _ a b (by have := b.isLt; omega)).trans ?_
    exact congrArg₂ (layer _ x1 x2) (Fin.ext (by show a.val = 0 + 1 * a.val; omega)) (Fin.ext (by show 3072 + b.val = 3072 + 1 * b.val; omega))
  · obtain ⟨a, b, rfl⟩ : ∃ (a : Fin 1024) (b : Fin 1024), x = ix2 a b := ⟨x 0, x 1, eq_ix2 x⟩
    refine (pay65_apply _ _ _ a b).trans ?_
    refine (layer_chunk (fun y => two * x0 y) x1 x2 2048 _ _ a b (by have := b.isLt; omega)).trans ?_
    exact congrArg₂ (layer _ x1 x2) (Fin.ext (by show a.val = 0 + 1 * a.val; omega)) (Fin.ext (by show 2048 + b.val = 2048 + 1 * b.val; omega))
  · obtain ⟨a, b, rfl⟩ : ∃ (a : Fin 1024) (b : Fin 1024), x = ix2 a b := ⟨x 0, x 1, eq_ix2 x⟩
    refine (pay4_apply _ _ _ a b).trans ?_
    refine (layer_chunk (fun y => two * x0 y) x1 x2 1024 _ _ a b (by have := b.isLt; omega)).trans ?_
    exact congrArg₂ (layer _ x1 x2) (Fin.ext (by show a.val = 0 + 1 * a.val; omega)) (Fin.ext (by show 1024 + b.val = 1024 + 1 * b.val; omega))
  · obtain ⟨a, b, rfl⟩ : ∃ (a : Fin 1024) (b : Fin 1024), x = ix2 a b := ⟨x 0, x 1, eq_ix2 x⟩
    refine (pay3_apply _ _ _ a b).trans ?_
    refine (layer_chunk (fun y => two * x0 y) x1 x2 0 _ _ a b (by have := b.isLt; omega)).trans ?_
    exact congrArg₂ (layer _ x1 x2) (Fin.ext (by show a.val = 0 + 1 * a.val; omega)) (Fin.ext (by show 0 + b.val = 0 + 1 * b.val; omega))

/-- A unit-stride rectangle of full width places its entry `(a, b)` at `(o + a, b)`. -/
theorem emb_rows {M N m : ℕ} (o : ℕ)
    (inb : ∀ a, (![o, 0] : Fin 2 → ℕ) a + (![m, N] : Fin 2 → ℕ) a ≤ (⟨2, ![M, N]⟩ : Shape).size a)
    (a : Fin m) (b : Fin N) (h : o + a.val < M) :
    (Rect.unit (s := ⟨2, ![M, N]⟩) ![o, 0] ![m, N] inb).emb (ix2 a b) = ix2 ⟨o + a.val, h⟩ b := by
  funext d
  apply Fin.ext
  match d with
  | ⟨0, _⟩ => show o + 1 * a.val = o + a.val; omega
  | ⟨1, _⟩ => show 0 + 1 * b.val = b.val; omega

/-- One half tile's accumulation: the accumulator's entry plus the entry of (second hidden rows) · (last weights' row block). -/
theorem half (acc : (⟨2, ![512, 1024]⟩ : Shape).Idx → EReal) (sc : (⟨2, ![512, 4096]⟩ : Shape).Idx → EReal)
    (x3 : Vec Ideal S4096x512 .f32) (x4 : Vec Ideal S1x512 .f32) (x5 : Vec Ideal S512x1024 .bf16) (a : Fin 512) (b : Fin 1024) :
    k0_pay1 (F := Ideal) (k0_pay11 (F := Ideal) x3 sc x4) acc x5 (ix2 a b)
      = acc (ix2 a b) + ∑ n : Fin 512, layer sc x3 x4 a n * x5 (ix2 n b) := by
  rw [pay1_apply]
  exact congrArg (acc (ix2 a b) + ·) (Finset.sum_congr rfl fun n _ => by rw [pay11_apply])

/-- A layer depends on its left operand through one row only. -/
theorem layer_congr_rows {M M' K N : ℕ} (sc : (⟨2, ![M, K]⟩ : Shape).Idx → EReal) (SC : (⟨2, ![M', K]⟩ : Shape).Idx → EReal)
    (w : (⟨2, ![K, N]⟩ : Shape).Idx → EReal) (bias : (⟨2, ![1, N]⟩ : Shape).Idx → EReal) (a : Fin M) (r : Fin M')
    (h : ∀ k, sc (ix2 a k) = SC (ix2 r k)) (n : Fin N) : layer sc w bias a n = layer SC w bias r n := by
  unfold layer
  exact congrArg (fun s => max (s + bias (ix2 (0 : Fin 1) n)) 0) (Finset.sum_congr rfl fun k _ => by rw [h k])

/-- The value a half tile's store leaves at local entry `(a, b)`, in terms of the whole accumulator tile `ACC` and the
    whole scratch `SC` whose rows `o …` the half tile loads. -/
theorem half_at (ACC : (⟨2, ![1024, 1024]⟩ : Shape).Idx → EReal) (SC : (⟨2, ![1024, 4096]⟩ : Shape).Idx → EReal)
    (acc : (⟨2, ![512, 1024]⟩ : Shape).Idx → EReal) (sc : (⟨2, ![512, 4096]⟩ : Shape).Idx → EReal)
    (x3 : Vec Ideal S4096x512 .f32) (x4 : Vec Ideal S1x512 .f32) (x5 : Vec Ideal S512x1024 .bf16) (a : Fin 512) (b : Fin 1024)
    (r : Fin 1024) (hacc : acc (ix2 a b) = ACC (ix2 r b)) (hsc : ∀ k, sc (ix2 a k) = SC (ix2 r k)) :
    k0_pay1 (F := Ideal) (k0_pay11 (F := Ideal) x3 sc x4) acc x5 (ix2 a b)
      = ACC (ix2 r b) + ∑ n : Fin 512, layer SC x3 x4 r n * x5 (ix2 n b) := by
  rw [half, hacc]
  exact congrArg (ACC (ix2 r b) + ·) (Finset.sum_congr rfl fun n _ => by rw [layer_congr_rows sc SC x3 x4 a r hsc n])

/-- WHAT A LATER POINT OF A BATCH TILE LEAVES IN THE OUTPUT BLOCK, over the block `xo7` and the scratch `xs0` the point
    before left: each entry plus the entry of (second hidden layer of the scratch row, this point's column block) ·
    (this point's row block of the last weights). Two stores of `512` rows each, both this function of the block index. -/
theorem out_B (c : Dev nD) (i : grid0.Coords) (arg2 : Memref sig .tc .vmem S1024x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .f32) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole) (hc0 : ¬cond0_0 i) (x0 : Vec Ideal S1024x1024 .f32) (x1 : Vec Ideal S1024x4096 .bf16) (x2 : Vec Ideal S1x4096 .f32) (x3 : Vec Ideal S4096x512 .f32) (x4 : Vec Ideal S1x512 .f32) (x5 : Vec Ideal S512x1024 .bf16) (x6 : Vec Ideal S1x1024 .f32) (xo7 : Vec Ideal S1024x1024 .f32) (xs0 : Vec Ideal S1024x4096 .bf16)
    (p : Fin 1024) (q : Fin 1024) :
    out0_B_7 c i arg2 harg2 arg3 harg3 arg4 harg4 arg5 harg5 arg6 harg6 arg7 harg7 arg8 harg8 arg9 harg9 arg10 harg10 hc0 x0 x1 x2 x3 x4 x5 x6 xo7 xs0 (ix2 p q)
      = xo7 (ix2 p q) + ∑ n : Fin 512, layer xs0 x3 x4 p n * x5 (ix2 n q) := by
  unfold out0_B_7
  rw [View.read_writes_junk_eq_canon]
  refine View.canon_apply_of_pieces (fun y : S1024x1024.Idx => xo7 (ix2 (y 0) (y 1)) + ∑ n : Fin 512, layer xs0 x3 x4 (y 0) n * x5 (ix2 n (y 1))) _ ?_ (ix2 p q)
    (cover0_B_7 c i arg2 harg2 arg3 harg3 arg4 harg4 arg5 harg5 arg6 harg6 arg7 harg7 arg8 harg8 arg9 harg9 arg10 harg10 hc0 x0 x1 x2 x3 x4 x5 x6 xo7 xs0 (ix2 p q))
  unfold kernelRun0_B
  dsimp only
  sl_unfold_words
  intro pc hpc x
  simp only [View.readAt_eq_ld, harg5.read_unread, harg6.read_unread, harg7.read_unread, harg9.read_unread, harg10.read_unread,
    View.ld_unit_zero (S := S4096x512) hz, View.ld_unit_zero (S := S1x512) hz, View.ld_unit_zero (S := S512x1024) hz] at hpc
  simp only [List.mem_cons, List.not_mem_nil, or_false] at hpc
  rcases hpc with rfl | rfl
  · obtain ⟨a, b, rfl⟩ : ∃ (a : Fin 512) (b : Fin 1024), x = ix2 a b := ⟨x 0, x 1, eq_ix2 x⟩
    have ha : 512 + a.val < 1024 := by have := a.isLt; omega
    dsimp only
    rw [emb_rows (M := 1024) (N := 1024) 512 inb_S1024x1024_S512x1024_512_0 a b ha]
    exact half_at xo7 xs0 _ _ x3 x4 x5 a b ⟨512 + a.val, ha⟩
      (by show xo7 ((Rect.unit (s := S1024x1024) ![512, 0] ![512, 1024] inb_S1024x1024_S512x1024_512_0).emb (ix2 a b)) = _
          rw [emb_rows (M := 1024) (N := 1024) 512 _ a b ha])
      (fun k => by
        show xs0 ((Rect.unit (s := S1024x4096) ![512, 0] ![512, 4096] inb_S1024x4096_S512x4096_512_0).emb (ix2 a k)) = _
        rw [emb_rows (M := 1024) (N := 4096) 512 _ a k ha])
  · obtain ⟨a, b, rfl⟩ : ∃ (a : Fin 512) (b : Fin 1024), x = ix2 a b := ⟨x 0, x 1, eq_ix2 x⟩
    have ha : 0 + a.val < 1024 := by have := a.isLt; omega
    dsimp only
    rw [emb_rows (M := 1024) (N := 1024) 0 inb_S1024x1024_S512x1024_0_0 a b ha]
    exact half_at xo7 xs0 _ _ x3 x4 x5 a b ⟨0 + a.val, ha⟩
      (by show xo7 ((Rect.unit (s := S1024x1024) ![0, 0] ![512, 1024] inb_S1024x1024_S512x1024_0_0).emb (ix2 a b)) = _
          rw [emb_rows (M := 1024) (N := 1024) 0 _ a b ha])
      (fun k => by
        show xs0 ((Rect.unit (s := S1024x4096) ![0, 0] ![512, 4096] inb_S1024x4096_S512x4096_0_0).emb (ix2 a k)) = _
        rw [emb_rows (M := 1024) (N := 4096) 0 _ a k ha])

/-- The scratch after the first point of a batch tile, as a function of its index. -/
abbrev scr (x0 : Vec Ideal S1024x1024 .f32) (x1 : Vec Ideal S1024x4096 .bf16) (x2 : Vec Ideal S1x4096 .f32) :
    (⟨2, ![1024, 4096]⟩ : Shape).Idx → EReal :=
  fun y => layer (fun y => two * x0 y) x1 x2 (y 0) (y 1)

/-- A row of the tile lies in the upper half tile … -/
theorem row_lo (p : Fin 1024) (hp : p.val < 512) : ∃ (a : Fin 512) (h : 0 + a.val < 1024), p = ⟨0 + a.val, h⟩ :=
  ⟨⟨p.val, hp⟩, by show 0 + p.val < 1024; omega, Fin.ext (by show p.val = 0 + p.val; omega)⟩

/-- … or in the lower one. -/
theorem row_hi (p : Fin 1024) (hp : ¬p.val < 512) : ∃ (a : Fin 512) (h : 512 + a.val < 1024), p = ⟨512 + a.val, h⟩ :=
  ⟨⟨p.val - 512, by have := p.isLt; omega⟩, by have := p.isLt; show 512 + (p.val - 512) < 1024; omega,
    Fin.ext (by show p.val = 512 + (p.val - 512); omega)⟩

theorem out_A_aux (c : Dev nD) (i : grid0.Coords) (arg2 : Memref sig .tc .vmem S1024x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .f32) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole) (hc0 : cond0_0 i) (x0 : Vec Ideal S1024x1024 .f32) (x1 : Vec Ideal S1024x4096 .bf16) (x2 : Vec Ideal S1x4096 .f32) (x3 : Vec Ideal S4096x512 .f32) (x4 : Vec Ideal S1x512 .f32) (x5 : Vec Ideal S512x1024 .bf16) (x6 : Vec Ideal S1x1024 .f32) (p : Fin 1024) (q : Fin 1024) :
    (∀ (p : Fin 1024) (k : Fin 4096), View.canon ((kernelRun0_A c i arg2 harg2 arg3 harg3 arg4 harg4 arg5 harg5 arg6 harg6 arg7 harg7 arg8 harg8 arg9 harg9 arg10 harg10 hc0 x0 x1 x2 x3 x4 x5 x6).2.1) (ix2 p k) = scr x0 x1 x2 (ix2 p k)) →
    View.canon ((kernelRun0_A c i arg2 harg2 arg3 harg3 arg4 harg4 arg5 harg5 arg6 harg6 arg7 harg7 arg8 harg8 arg9 harg9 arg10 harg10 hc0 x0 x1 x2 x3 x4 x5 x6).1) (ix2 p q)
      = (x0 (ix2 p q) + x6 (ix2 (0 : Fin 1) q)) + ∑ n : Fin 512, layer (scr x0 x1 x2) x3 x4 p n * x5 (ix2 n q) := by
  unfold kernelRun0_A
  dsimp only
  sl_unfold_words
  intro hS
  simp only [View.readAt_eq_ld, harg2.read_unread, harg3.read_unread, harg4.read_unread, harg5.read_unread, harg6.read_unread, harg7.read_unread, harg8.read_unread,
    View.ld_unit_zero (S := S1024x1024) hz, View.ld_unit_zero (S := S4096x512) hz, View.ld_unit_zero (S := S1x512) hz, View.ld_unit_zero (S := S512x1024) hz,
    View.ld_unit_zero (S := S1x1024) hz, View.readCov_eq_canon', View.canon_unit_zero (S := S1024x1024) hz] at hS ⊢
  by_cases hp : p.val < 512
  · obtain ⟨a, ha, rfl⟩ := row_lo p hp
    rw [View.canon_cons_of_not_mem _ _ (fun h => by
      have h' : ix2 (⟨0 + a.val, ha⟩ : Fin 1024) q ∈ (Rect.unit (s := S1024x1024) ![512, 0] ![512, 1024] inb_S1024x1024_S512x1024_512_0).set := h
      have h2 : 512 ≤ 0 + a.val := (Rect.mem_set_unit.mp h' 0).1
      have := a.isLt; omega)]
    have e := emb_rows (M := 1024) (N := 1024) 0 inb_S1024x1024_S512x1024_0_0 a q ha
    rw [← e, View.canon_cons_emb, e]
    refine Eq.trans (show k0_pay10 (F := Ideal) x3 _ x4 _ x5 (ix2 a q) = k0_pay1 (F := Ideal) (k0_pay11 (F := Ideal) x3 _ x4) _ x5 (ix2 a q) from rfl) ?_
    refine half_at (fun y => x0 (ix2 (y 0) (y 1)) + x6 (ix2 (0 : Fin 1) (y 1))) (scr x0 x1 x2) _ _ x3 x4 x5 a q ⟨0 + a.val, ha⟩ ?_ ?_
    · show k0_pay8 (F := Ideal) x0 x6 ((Rect.unit (s := S1024x1024) ![0, 0] ![512, 1024] inb_S1024x1024_S512x1024_0_0).emb (ix2 a q)) = _
      rw [e, pay8_apply]
    · intro k
      show View.canon _ ((Rect.unit (s := S1024x4096) ![0, 0] ![512, 4096] inb_S1024x4096_S512x4096_0_0).emb (ix2 a k)) = _
      rw [emb_rows (M := 1024) (N := 4096) 0 _ a k ha]
      exact hS _ _
  · obtain ⟨a, ha, rfl⟩ := row_hi p hp
    have e := emb_rows (M := 1024) (N := 1024) 512 inb_S1024x1024_S512x1024_512_0 a q ha
    rw [← e, View.canon_cons_emb, e]
    refine half_at (fun y => x0 (ix2 (y 0) (y 1)) + x6 (ix2 (0 : Fin 1) (y 1))) (scr x0 x1 x2) _ _ x3 x4 x5 a q ⟨512 + a.val, ha⟩ ?_ ?_
    · show View.canon _ ((Rect.unit (s := S1024x1024) ![512, 0] ![512, 1024] inb_S1024x1024_S512x1024_512_0).emb (ix2 a q)) = _
      rw [e, View.canon_cons_of_not_mem _ _ (fun h => by
        have h' : ix2 (⟨512 + a.val, ha⟩ : Fin 1024) q ∈ (Rect.unit (s := S1024x1024) ![0, 0] ![512, 1024] inb_S1024x1024_S512x1024_0_0).set := h
        have h2 : 512 + a.val < 0 + 512 := (Rect.mem_set_unit.mp h' 0).2
        omega), View.canon_unit_zero (S := S1024x1024) hz, pay8_apply]
    · intro k
      show View.canon _ ((Rect.unit (s := S1024x4096) ![512, 0] ![512, 4096] inb_S1024x4096_S512x4096_512_0).emb (ix2 a k)) = _
      rw [emb_rows (M := 1024) (N := 4096) 512 _ a k ha]
      exact hS _ _

/-- WHAT THE FIRST POINT OF A BATCH TILE LEAVES IN THE OUTPUT BLOCK: the input block plus the last bias row, plus the
    entry of (second hidden layer of the scratch it has just stored, column block `0`) · (row block `0` of the last
    weights). The whole block is stored first, then the two half tiles are read back and stored with their products added. -/
theorem out_A (c : Dev nD) (i : grid0.Coords) (arg2 : Memref sig .tc .vmem S1024x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .f32) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole) (hc0 : cond0_0 i) (x0 : Vec Ideal S1024x1024 .f32) (x1 : Vec Ideal S1024x4096 .bf16) (x2 : Vec Ideal S1x4096 .f32) (x3 : Vec Ideal S4096x512 .f32) (x4 : Vec Ideal S1x512 .f32) (x5 : Vec Ideal S512x1024 .bf16) (x6 : Vec Ideal S1x1024 .f32) (p : Fin 1024) (q : Fin 1024) :
    out0_A_7 c i arg2 harg2 arg3 harg3 arg4 harg4 arg5 harg5 arg6 harg6 arg7 harg7 arg8 harg8 arg9 harg9 arg10 harg10 hc0 x0 x1 x2 x3 x4 x5 x6 (ix2 p q)
      = (x0 (ix2 p q) + x6 (ix2 (0 : Fin 1) q)) + ∑ n : Fin 512, layer (scr x0 x1 x2) x3 x4 p n * x5 (ix2 n q) := by
  unfold out0_A_7
  rw [View.read_writes_junk_eq_canon]
  refine out_A_aux c i arg2 harg2 arg3 harg3 arg4 harg4 arg5 harg5 arg6 harg6 arg7 harg7 arg8 harg8 arg9 harg9 arg10 harg10 hc0 x0 x1 x2 x3 x4 x5 x6 p q (fun p k => ?_)
  have h := sout_A c i arg2 harg2 arg3 harg3 arg4 harg4 arg5 harg5 arg6 harg6 arg7 harg7 arg8 harg8 arg9 harg9 arg10 harg10 hc0 x0 x1 x2 x3 x4 x5 x6 p k
  unfold sout0_A_0 at h
  rw [View.read_writes_junk_eq_canon] at h
  exact h

end Cert.KernelIdeal.Pieces
end
-- ==== Proof.Blocks.lean ====
/-
  What the region finds in its arrays and what each window's block is at a grid point, read at an entry.

  The grid has `16 × 8` points; point `t` works on batch tile `t / 8` (rows `1024 (t / 8) …` of the input and of the
  result) and on hidden column block `t % 8` (columns `512 (t % 8) …` of the second weights and of its bias, the same
  rows of the last weights). The first weights, its bias and the last bias are whole at every point. Before the region
  the two weight matrices that change format are unchanged as extended reals, and each bias vector is viewed as one row.
-/
import proofs.«111442_g14912126452479_cont_week2b_829_34_alg».proof.Proof.Gen.KernelIdeal.Frame
import proofs.«111442_g14912126452479_cont_week2b_829_34_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.Mlp

variable (m : (ℓ : Loc nD τ sig) → Buf (Elt Ideal) ℓ)

theorem V_w1 (c : Dev nD) : (V m c main_call0_v0 : S1024x4096.Idx → EReal)
    = truncf (F := Ideal) .bf16 (m ((c : Thread nD τ).loc main_arg1)) bitsLt_bf16_f32 := by
  dsimp only [V, hostOps0]; after_results; rfl

theorem V_w3 (c : Dev nD) : (V m c main_call0_v1 : S4096x1024.Idx → EReal)
    = truncf (F := Ideal) .bf16 (m ((c : Thread nD τ).loc main_arg5)) bitsLt_bf16_f32 := by
  dsimp only [V, hostOps0]; after_results; rfl

theorem V_b1 (c : Dev nD) : (V m c main_call0_v2 : S1x4096.Idx → EReal)
    = shapeCast S1x4096 (m ((c : Thread nD τ).loc main_arg2)) shapeCasts_S4096_S1x4096 := by
  dsimp only [V, hostOps0]; after_results; rfl

theorem V_b2 (c : Dev nD) : (V m c main_call0_v3 : S1x4096.Idx → EReal)
    = shapeCast S1x4096 (m ((c : Thread nD τ).loc main_arg4)) shapeCasts_S4096_S1x4096 := by
  dsimp only [V, hostOps0]; after_results; rfl

theorem V_b3 (c : Dev nD) : (V m c main_call0_v4 : S1x1024.Idx → EReal)
    = shapeCast S1x1024 (m ((c : Thread nD τ).loc main_arg6)) shapeCasts_S1024_S1x1024 := by
  dsimp only [V, hostOps0]; after_results; rfl

/-- A vector viewed as a one-row matrix reads its entry `n` at `(0, n)`. -/
theorem row_apply {N : ℕ} (v : (⟨1, ![N]⟩ : Shape).Idx → EReal) (h : (⟨1, ![N]⟩ : Shape).ShapeCasts ⟨2, ![1, N]⟩) (n : Fin N) :
    shapeCast (⟨2, ![1, N]⟩ : Shape) v h (ix2 (0 : Fin 1) n) = v (ix1 n) := by
  refine shapeCast_apply v h _ _ ?_
  rw [Shape.rowMajor_val_one, Shape.rowMajor_val_two]
  show n.val = 0 * N + n.val
  omega

/-! ## The index maps, decided once over the grid: point `t` is batch tile `t / 8`, column block `t % 8` -/

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 8 :=
  (by decide +kernel : ∀ t : Fin grid0.N, _)
theorem idx4 : ∀ t : Fin cfg0.N, win0_4.index t (0 : Fin 2) = 0 ∧ win0_4.index t (1 : Fin 2) = t.val % 8 :=
  (by decide +kernel : ∀ t : Fin grid0.N, _)
theorem idx5 : ∀ t : Fin cfg0.N, win0_5.index t (0 : Fin 2) = t.val % 8 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val / 8 ∧ win0_7.index t (1 : Fin 2) = 0 :=
  (by decide +kernel : ∀ t : Fin grid0.N, _)

/-- The input block at point `t`: rows `1024 (t / 8) …` of the input. -/
theorem xblk_apply (c : Dev nD) (t : Fin cfg0.N) (p : Fin 1024) (l : Fin 1024) (h : 1024 * (t.val / 8) + p.val < 16384) :
    (iblk m c 0 t : Vec Ideal S1024x1024 .f32) (ix2 p l)
      = m ((c : Thread nD τ).loc main_arg0) (ix2 (⟨1024 * (t.val / 8) + p.val, h⟩ : Fin 16384) l) := by
  have hi := idx0 t
  unfold iblk
  rw [View.read_apply]
  show V m c main_arg0 _ = _
  rw [V_main_arg0]
  refine congrArg _ (funext fun a => Fin.ext ?_)
  match a with
  | ⟨0, _⟩ => show win0_0.index t 0 * 1024 + 1 * p.val = 1024 * (t.val / 8) + p.val; rw [hi.1]; omega
  | ⟨1, _⟩ => show win0_0.index t 1 * 1024 + 1 * l.val = l.val; rw [hi.2]; omega

/-- The first weights' block at every point: the whole matrix (the change of format is the identity). -/
theorem w1blk_apply (c : Dev nD) (t : Fin cfg0.N) (l : Fin 1024) (k : Fin 4096) :
    (iblk m c 1 t : Vec Ideal S1024x4096 .bf16) (ix2 l k) = m ((c : Thread nD τ).loc main_arg1) (ix2 l k) := by
  have hi := idx1 t
  unfold iblk
  rw [View.read_apply]
  show V m c main_call0_v0 _ = _
  rw [V_w1]
  show m ((c : Thread nD τ).loc main_arg1) _ = _
  refine congrArg _ (funext fun a => Fin.ext ?_)
  match a with
  | ⟨0, _⟩ => show win0_1.index t 0 * 1024 + 1 * l.val = l.val; rw [hi.1]; omega
  | ⟨1, _⟩ => show win0_1.index t 1 * 4096 + 1 * k.val = k.val; rw [hi.2]; omega

/-- The first bias row at every point: the whole vector as one row. -/
theorem b1blk_apply (c : Dev nD) (t : Fin cfg0.N) (k : Fin 4096) :
    (iblk m c 2 t : Vec Ideal S1x4096 .f32) (ix2 (0 : Fin 1) k) = m ((c : Thread nD τ).loc main_arg2) (ix1 k) := by
  have hi := idx2 t
  unfold iblk
  rw [View.read_apply]
  show V m c main_call0_v2 _ = _
  rw [V_b1]
  refine (congrArg (shapeCast S1x4096 (m ((c : Thread nD τ).loc main_arg2)) shapeCasts_S4096_S1x4096)
    (funext fun a => Fin.ext ?_ : _ = ix2 (0 : Fin 1) k)).trans (row_apply _ _ k)
  match a with
  | ⟨0, _⟩ => show win0_2.index t 0 * 1 + 1 * 0 = 0; rw [hi.1]
  | ⟨1, _⟩ => show win0_2.index t 1 * 4096 + 1 * k.val = k.val; rw [hi.2]; omega

/-- The second weights' block at point `t`: columns `512 (t % 8) …`. -/
theorem w2blk_apply (c : Dev nD) (t : Fin cfg0.N) (k : Fin 4096) (n : Fin 512) (h : 512 * (t.val % 8) + n.val < 4096) :
    (iblk m c 3 t : Vec Ideal S4096x512 .f32) (ix2 k n)
      = m ((c : Thread nD τ).loc main_arg3) (ix2 k (⟨512 * (t.val % 8) + n.val, h⟩ : Fin 4096)) := by
  have hi := idx3 t
  unfold iblk
  rw [View.read_apply]
  show V m c main_arg3 _ = _
  rw [V_main_arg3]
  refine congrArg _ (funext fun a => Fin.ext ?_)
  match a with
  | ⟨0, _⟩ => show win0_3.index t 0 * 4096 + 1 * k.val = k.val; rw [hi.1]; omega
  | ⟨1, _⟩ => show win0_3.index t 1 * 512 + 1 * n.val = 512 * (t.val % 8) + n.val; rw [hi.2]; omega

/-- The second bias block at point `t`: entries `512 (t % 8) …`, as one row. -/
theorem b2blk_apply (c : Dev nD) (t : Fin cfg0.N) (n : Fin 512) (h : 512 * (t.val % 8) + n.val < 4096) :
    (iblk m c 4 t : Vec Ideal S1x512 .f32) (ix2 (0 : Fin 1) n)
      = m ((c : Thread nD τ).loc main_arg4) (ix1 (⟨512 * (t.val % 8) + n.val, h⟩ : Fin 4096)) := by
  have hi := idx4 t
  unfold iblk
  rw [View.read_apply]
  show V m c main_call0_v3 _ = _
  rw [V_b2]
  refine (congrArg (shapeCast S1x4096 (m ((c : Thread nD τ).loc main_arg4)) shapeCasts_S4096_S1x4096)
    (funext fun a => Fin.ext ?_ : _ = ix2 (0 : Fin 1) (⟨512 * (t.val % 8) + n.val, h⟩ : Fin 4096))).trans (row_apply _ _ _)
  match a with
  | ⟨0, _⟩ => show win0_4.index t 0 * 1 + 1 * 0 = 0; rw [hi.1]
  | ⟨1, _⟩ => show win0_4.index t 1 * 512 + 1 * n.val = 512 * (t.val % 8) + n.val; rw [hi.2]; omega

/-- The last weights' block at point `t`: rows `512 (t % 8) …` (the change of format is the identity). -/
theorem w3blk_apply (c : Dev nD) (t : Fin cfg0.N) (n : Fin 512) (q : Fin 1024) (h : 512 * (t.val % 8) + n.val < 4096) :
    (iblk m c 5 t : Vec Ideal S512x1024 .bf16) (ix2 n q)
      = m ((c : Thread nD τ).loc main_arg5) (ix2 (⟨512 * (t.val % 8) + n.val, h⟩ : Fin 4096) q) := by
  have hi := idx5 t
  unfold iblk
  rw [View.read_apply]
  show V m c main_call0_v1 _ = _
  rw [V_w3]
  show m ((c : Thread nD τ).loc main_arg5) _ = _
  refine congrArg _ (funext fun a => Fin.ext ?_)
  match a with
  | ⟨0, _⟩ => show win0_5.index t 0 * 512 + 1 * n.val = 512 * (t.val % 8) + n.val; rw [hi.1]; omega
  | ⟨1, _⟩ => show win0_5.index t 1 * 1024 + 1 * q.val = q.val; rw [hi.2]; omega

/-- The last bias row at every point: the whole vector as one row. -/
theorem b3blk_apply (c : Dev nD) (t : Fin cfg0.N) (q : Fin 1024) :
    (iblk m c 6 t : Vec Ideal S1x1024 .f32) (ix2 (0 : Fin 1) q) = m ((c : Thread nD τ).loc main_arg6) (ix1 q) := by
  have hi := idx6 t
  unfold iblk
  rw [View.read_apply]
  show V m c main_call0_v4 _ = _
  rw [V_b3]
  refine (congrArg (shapeCast S1x1024 (m ((c : Thread nD τ).loc main_arg6)) shapeCasts_S1024_S1x1024)
    (funext fun a => Fin.ext ?_ : _ = ix2 (0 : Fin 1) q)).trans (row_apply _ _ q)
  match a with
  | ⟨0, _⟩ => show win0_6.index t 0 * 1 + 1 * 0 = 0; rw [hi.1]
  | ⟨1, _⟩ => show win0_6.index t 1 * 1024 + 1 * q.val = q.val; rw [hi.2]; omega

end Cert.KernelIdeal.Blocks
end
-- ==== Proof.Accumulate.lean ====
/-
  The kernel's result array: the blockwise form of the specification.

  The grid runs batch tile by batch tile and, inside a tile, hidden column block by column block. The body carries two
  things from one point of a tile to the next: the scratch (the first hidden layer of the tile's rows, stored at the
  tile's first point) and the output block (the running value: `x + b3` and block `0`'s share at the first point, one
  more block's share at each later point). By induction on the point both hold what the specification says; the block
  is written back after the tile's last point, and the written blocks tile the result array.
-/
import proofs.«111442_g14912126452479_cont_week2b_829_34_alg».proof.Proof.Gen.KernelIdeal.Value
import proofs.«111442_g14912126452479_cont_week2b_829_34_alg».proof.Proof.Pieces
import proofs.«111442_g14912126452479_cont_week2b_829_34_alg».proof.Proof.Blocks

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Pay Cert.KernelIdeal.Pieces Cert.KernelIdeal.Blocks Cert.Mlp

variable (m : (ℓ : Loc nD τ sig) → Buf (Elt Ideal) ℓ)

/-- The argument arrays on core `c`, as the specification takes them. -/
def args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6)⟩

/-- The windows' blocks at a point, each at its literal type. -/
abbrev b0 (c : Dev nD) (t : Fin cfg0.N) : Vec Ideal S1024x1024 .f32 := iblk m c 0 t
abbrev b1 (c : Dev nD) (t : Fin cfg0.N) : Vec Ideal S1024x4096 .bf16 := iblk m c 1 t
abbrev b2 (c : Dev nD) (t : Fin cfg0.N) : Vec Ideal S1x4096 .f32 := iblk m c 2 t
abbrev b3 (c : Dev nD) (t : Fin cfg0.N) : Vec Ideal S4096x512 .f32 := iblk m c 3 t
abbrev b4 (c : Dev nD) (t : Fin cfg0.N) : Vec Ideal S1x512 .f32 := iblk m c 4 t
abbrev b5 (c : Dev nD) (t : Fin cfg0.N) : Vec Ideal S512x1024 .bf16 := iblk m c 5 t
abbrev b6 (c : Dev nD) (t : Fin cfg0.N) : Vec Ideal S1x1024 .f32 := iblk m c 6 t

/-- The scratch after a point that starts a batch tile. -/
theorem scratch_first (c : Dev nD) (t : Fin cfg0.N) (h0 : t.val % 8 = 0) (p : Fin 1024) (k : Fin 4096) :
    (outsAt0 m c t.val t.isLt).2 (ix2 p k) = layer (fun y => two * b0 m c t y) (b1 m c t) (b2 m c t) p k := by
  rw [outsAt0_A m c t h0]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (b0 m c t) (b1 m c t) (b2 m c t) (b3 m c t) (b4 m c t) (b5 m c t) (b6 m c t) p k

/-- The output block after a point that starts a batch tile. -/
theorem block_first (c : Dev nD) (t : Fin cfg0.N) (h0 : t.val % 8 = 0) (p : Fin 1024) (q : Fin 1024) :
    (outsAt0 m c t.val t.isLt).1 (ix2 p q)
      = (b0 m c t (ix2 p q) + b6 m c t (ix2 (0 : Fin 1) q))
        + ∑ n : Fin 512, layer (scr (b0 m c t) (b1 m c t) (b2 m c t)) (b3 m c t) (b4 m c t) p n * b5 m c t (ix2 n q) := by
  rw [outsAt0_A m c t h0]
  dsimp only
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (b0 m c t) (b1 m c t) (b2 m c t) (b3 m c t) (b4 m c t) (b5 m c t) (b6 m c t) p q

/-- The scratch after a later point of a batch tile: what the point before left. -/
theorem scratch_next (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only [sout0_B_0]

/-- The output block after a later point of a batch tile. -/
theorem block_next (c : Dev nD) (t : Fin cfg0.N) (h0 : ¬t.val % 8 = 0) (p : Fin 1024) (q : Fin 1024) :
    (outsAt0 m c t.val t.isLt).1 (ix2 p q)
      = (outsAt0 m c (t.val - 1) (Nat.lt_of_le_of_lt (Nat.sub_le _ _) t.isLt)).1 (ix2 p q)
        + ∑ n : Fin 512, layer (outsAt0 m c (t.val - 1) (Nat.lt_of_le_of_lt (Nat.sub_le _ _) t.isLt)).2 (b3 m c t) (b4 m c t) p n * b5 m c t (ix2 n q) := by
  rw [outsAt0_B m c t h0]
  dsimp only
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (b0 m c t) (b1 m c t) (b2 m c t) (b3 m c t) (b4 m c t) (b5 m c t) (b6 m c t) _ _ p q

/-- Row `p` of batch tile `i`. -/
def row (i : ℕ) (hi : i < 16) (p : Fin 1024) : Fin 16384 := ⟨1024 * i + p.val, by have := p.isLt; omega⟩

/-- The input block's row `p` at a point of batch tile `i` is the input's row `row i p`. -/
theorem b0_row (c : Dev nD) (t : Fin cfg0.N) (i : ℕ) (hi : i < 16) (ht : t.val / 8 = i) (p : Fin 1024) (l : Fin 1024) :
    b0 m c t (ix2 p l) = (args m c).x (ix2 (row i hi p) l) := by
  have h : 1024 * (t.val / 8) + p.val < 16384 := by have := p.isLt; omega
  refine (xblk_apply m c t p l h).trans ?_
  exact congrArg (fun z => m ((c : Thread nD τ).loc main_arg0) (ix2 z l))
    (Fin.ext (by show 1024 * (t.val / 8) + p.val = 1024 * i + p.val; rw [ht]))

/-- The other blocks at a point, read at an entry of the argument arrays: point `t` takes column block `t % 8`. -/
theorem b1_apply (c : Dev nD) (t : Fin cfg0.N) (l : Fin 1024) (k : Fin 4096) :
    b1 m c t (ix2 l k) = (args m c).w1 (ix2 l k) := w1blk_apply m c t l k
theorem b2_apply (c : Dev nD) (t : Fin cfg0.N) (k : Fin 4096) :
    b2 m c t (ix2 (0 : Fin 1) k) = (args m c).b1 (ix1 k) := b1blk_apply m c t k
theorem b3_apply (c : Dev nD) (t : Fin cfg0.N) (k : Fin 4096) (n : Fin 512) (h : 512 * (t.val % 8) + n.val < 4096) :
    b3 m c t (ix2 k n) = (args m c).w2 (ix2 k (⟨512 * (t.val % 8) + n.val, h⟩ : Fin 4096)) := w2blk_apply m c t k n h
theorem b4_apply (c : Dev nD) (t : Fin cfg0.N) (n : Fin 512) (h : 512 * (t.val % 8) + n.val < 4096) :
    b4 m c t (ix2 (0 : Fin 1) n) = (args m c).b2 (ix1 (⟨512 * (t.val % 8) + n.val, h⟩ : Fin 4096)) := b2blk_apply m c t n h
theorem b5_apply (c : Dev nD) (t : Fin cfg0.N) (n : Fin 512) (q : Fin 1024) (h : 512 * (t.val % 8) + n.val < 4096) :
    b5 m c t (ix2 n q) = (args m c).w3 (ix2 (⟨512 * (t.val % 8) + n.val, h⟩ : Fin 4096) q) := w3blk_apply m c t n q h
theorem b6_apply (c : Dev nD) (t : Fin cfg0.N) (q : Fin 1024) :
    b6 m c t (ix2 (0 : Fin 1) q) = (args m c).b3 (ix1 q) := b3blk_apply m c t q

/-- The first hidden layer computed from the blocks at a point of batch tile `i` is the specification's. -/
theorem hid1_blocks (c : Dev nD) (t : Fin cfg0.N) (i : ℕ) (hi : i < 16) (ht : t.val / 8 = i) (p : Fin 1024) (k : Fin 4096) :
    layer (fun y => two * b0 m c t y) (b1 m c t) (b2 m c t) p k = hid1 (args m c) (dblMul (args m c)) (row i hi p) k := by
  unfold layer hid1
  rw [b2_apply]
  refine congrArg (fun s => max (s + _) 0) (Finset.sum_congr rfl fun l _ => ?_)
  show two * b0 m c t (ix2 p l) * b1 m c t (ix2 l k) = _
  rw [b0_row m c t i hi ht p l, b1_apply]
  rfl

/-- A point's share of the last product, computed from its blocks over a scratch that holds the first hidden layer
    of the tile's rows, is the specification's share of the point's column block. -/
theorem share_eq (c : Dev nD) (t : Fin cfg0.N) (S : Vec Ideal S1024x4096 .bf16) (i : ℕ) (hi : i < 16) (j : Fin 8)
    (hjt : t.val % 8 = j.val) (p : Fin 1024) (q : Fin 1024)
    (hS : ∀ k, S (ix2 p k) = hid1 (args m c) (dblMul (args m c)) (row i hi p) k) :
    ∑ n : Fin 512, layer S (b3 m c t) (b4 m c t) p n * b5 m c t (ix2 n q)
      = part (args m c) (dblMul (args m c)) (row i hi p) q j := by
  unfold part
  refine Finset.sum_congr rfl fun n _ => ?_
  have hn : 512 * (t.val % 8) + n.val < 4096 := by have := n.isLt; omega
  have hu : (⟨512 * (t.val % 8) + n.val, hn⟩ : Fin 4096) = unit j n :=
    Fin.ext (by show 512 * (t.val % 8) + n.val = 512 * j.val + n.val; rw [hjt])
  rw [b5_apply m c t n q hn, hu]
  refine congrArg (· * _) ?_
  unfold layer hid2
  rw [b4_apply m c t n hn, hu]
  refine congrArg (fun s => max (s + _) 0) (Finset.sum_congr rfl fun k _ => ?_)
  rw [hS k, b3_apply m c t k n hn, hu]

/-- THE ACCUMULATION. After the point `8 i + j` the scratch holds the first hidden layer of batch tile `i`'s rows and the
    output block holds the running value after block `j`: by induction on the point. A point with `j = 0` stores the
    scratch and `x + b3` and adds block `0`'s share; a later point keeps the scratch and adds block `j`'s share to what
    the point before left. -/
theorem accumulated (c : Dev nD) : ∀ (n : ℕ) (hn : n < cfg0.N) (i j : ℕ) (hi : i < 16) (hj : j < 8), n = 8 * i + j →
    (∀ (p : Fin 1024) (k : Fin 4096),
        (outsAt0 m c n hn).2 (ix2 p k) = hid1 (args m c) (dblMul (args m c)) (row i hi p) k)
    ∧ (∀ (p q : Fin 1024),
        (outsAt0 m c n hn).1 (ix2 p q) = acc (args m c) (dblMul (args m c)) (row i hi p) q j hj) := by
  intro n
  induction n with
  | zero =>
    intro hn i j hi hj e
    obtain rfl : i = 0 := by omega
    obtain rfl : j = 0 := by omega
    have h1 : ∀ (p : Fin 1024) (k : Fin 4096), (outsAt0 m c 0 hn).2 (ix2 p k) = hid1 (args m c) (dblMul (args m c)) (row 0 hi p) k :=
      fun p k => (scratch_first m c ⟨0, hn⟩ (Nat.zero_mod 8) p k).trans (hid1_blocks m c ⟨0, hn⟩ 0 hi (Nat.zero_div 8) p k)
    refine ⟨h1, fun p q => (block_first m c ⟨0, hn⟩ (Nat.zero_mod 8) p q).trans ?_⟩
    rw [b0_row m c ⟨0, hn⟩ 0 hi (Nat.zero_div 8) p q, b6_apply,
      share_eq m c ⟨0, hn⟩ _ 0 hi ⟨0, hj⟩ (Nat.zero_mod 8) p q (fun k => hid1_blocks m c ⟨0, hn⟩ 0 hi (Nat.zero_div 8) p k)]
    rfl
  | succ n ih =>
    intro hn i j hi hj e
    by_cases h0 : (n + 1) % 8 = 0
    · obtain rfl : j = 0 := by omega
      have ht : (n + 1) / 8 = i := by omega
      have h1 : ∀ (p : Fin 1024) (k : Fin 4096), (outsAt0 m c (n + 1) hn).2 (ix2 p k) = hid1 (args m c) (dblMul (args m c)) (row i hi p) k :=
        fun p k => (scratch_first m c ⟨n + 1, hn⟩ h0 p k).trans (hid1_blocks m c ⟨n + 1, hn⟩ i hi ht p k)
      refine ⟨h1, fun p q => (block_first m c ⟨n + 1, hn⟩ h0 p q).trans ?_⟩
      rw [b0_row m c ⟨n + 1, hn⟩ i hi ht p q, b6_apply,
        share_eq m c ⟨n + 1, hn⟩ _ i hi ⟨0, hj⟩ h0 p q (fun k => hid1_blocks m c ⟨n + 1, hn⟩ i hi ht p k)]
      rfl
    · obtain ⟨j', rfl⟩ : ∃ j', j = j' + 1 := ⟨j - 1, by omega⟩
      have hj' : j' < 8 := by omega
      obtain ⟨ih1, ih2⟩ := ih (Nat.lt_of_succ_lt hn) i j' hi hj' (by omega)
      have h1 : ∀ (p : Fin 1024) (k : Fin 4096), (outsAt0 m c (n + 1) hn).2 (ix2 p k) = hid1 (args m c) (dblMul (args m c)) (row i hi p) k :=
        fun p k => (congrFun (scratch_next m c ⟨n + 1, hn⟩ h0) (ix2 p k)).trans (ih1 p k)
      refine ⟨h1, fun p q => (block_next m c ⟨n + 1, hn⟩ h0 p q).trans ?_⟩
      show (outsAt0 m c n (Nat.lt_of_succ_lt hn)).1 (ix2 p q)
        + ∑ n_1 : Fin 512, layer (outsAt0 m c n (Nat.lt_of_succ_lt hn)).2 (b3 m c ⟨n + 1, hn⟩) (b4 m c ⟨n + 1, hn⟩) p n_1 * b5 m c ⟨n + 1, hn⟩ (ix2 n_1 q) = _
      rw [share_eq m c ⟨n + 1, hn⟩ _ i hi ⟨j' + 1, hj⟩ (by show (n + 1) % 8 = j' + 1; omega) p q (fun k => ih1 p k)]
      exact congrArg (· + _) (ih2 p q)

/-- THE RESULT ARRAY on core `c`: the blockwise form of the specification at every entry. -/
abbrev result (c : Dev nD) : Buf (Elt Ideal) ((c : Thread nD τ).loc main_v0) :=
  fun y : S16384x1024.Idx => blockwise (args m c) (y 0) (y 1)

/-- What a point that ends a batch tile writes back is that tile's rows of the result: after block `7` the running
    value is the blockwise form. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have hN : t.val < 128 := lt_of_lt_of_eq t.isLt (show cfg0.N = 128 from N_0)
  have hi : t.val / 8 < 16 := by omega
  rw [Value.flushed7]
  refine funext fun (y : S1024x1024.Idx) => ?_
  obtain ⟨p, q, rfl⟩ : ∃ (p q : Fin 1024), y = ix2 p q := ⟨y 0, y 1, eq_ix2 y⟩
  show (outsAt0 m c t.val t.isLt).1 (ix2 p q) = result m c (((cfg0.win 7).blk t).view.emb (ix2 p q))
  rw [(accumulated m c t.val t.isLt (t.val / 8) 7 hi (by decide) (by omega)).2 p q]
  have e : ((cfg0.win 7).blk t).view.emb (ix2 p q) = ix2 (row (t.val / 8) hi p) q := funext fun a => Fin.ext (by
    match a with
    | ⟨0, _⟩ => show win0_7.index t 0 * 1024 + 1 * p.val = 1024 * (t.val / 8) + p.val; rw [(idx7 t).1]; omega
    | ⟨1, _⟩ => show win0_7.index t 1 * 1024 + 1 * q.val = q.val; rw [(idx7 t).2]; omega)
  rw [e]
  rfl

/-- An index of the result array is in point `t`'s block iff each coordinate is in the block's range on its axis. -/
theorem mem_blk (t : Fin cfg0.N) (y : S16384x1024.Idx) :
    y ∈ ((cfg0.win 7).blk t).view.set ↔ ∀ a : Fin 2, win0_7.index t a * S1024x1024.size a ≤ (y a).val ∧ (y a).val < win0_7.index t a * S1024x1024.size a + S1024x1024.size a := by
  show y ∈ ((View.whole main_v0).slice (win0_7.rect t)).set ↔ _
  rw [View.set_slice_whole, Rect.mem_set_unit]
  exact Iff.rfl

/-- Every row of the result lies in the block of the point that ends its batch tile. -/
theorem covered (y : S16384x1024.Idx) : ∃ t : Fin cfg0.N, (cfg0.win 7).flush t = true ∧ y ∈ ((cfg0.win 7).blk t).view.set := by
  have h0 : (y 0).val < 16384 := (y 0).isLt
  have h1 : (y 1).val < 1024 := (y 1).isLt
  have hN : cfg0.N = 128 := N_0
  refine ⟨⟨8 * ((y 0).val / 1024) + 7, by rw [hN]; omega⟩, (flush0_7 _).mpr (by show (8 * ((y 0).val / 1024) + 7) % 8 = 7; omega), ?_⟩
  rw [mem_blk]
  intro a
  match a with
  | ⟨0, _⟩ =>
    show win0_7.index _ (0 : Fin 2) * 1024 ≤ (y 0).val ∧ (y 0).val < win0_7.index _ (0 : Fin 2) * 1024 + 1024
    rw [(idx7 _).1]
    show (8 * ((y 0).val / 1024) + 7) / 8 * 1024 ≤ (y 0).val ∧ (y 0).val < (8 * ((y 0).val / 1024) + 7) / 8 * 1024 + 1024
    omega
  | ⟨1, _⟩ =>
    show win0_7.index _ (1 : Fin 2) * 1024 ≤ (y 1).val ∧ (y 1).val < win0_7.index _ (1 : Fin 2) * 1024 + 1024
    rw [(idx7 _).2]
    omega

/-- So the result array ends holding the blockwise form. -/
theorem final (c : Dev nD) : (dats m 0 c).arrAt 7 cfg0.N = result m c :=
  (dats m 0 c).arrAt_eq_of_cover 7 (result m c) (flushed_eq m c) covered

/-- THE RUN, READ: every weakly fair execution terminates with the result array at the blockwise form of the
    argument arrays, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Acc
end
-- ==== Proof.RefSpec.lean ====
/-
  The reference program computes the whole-sum form of the perceptron.

  Read index by index, the reference doubles the input by `x + x`, takes the positive part of `d · w1 + b1`, then the
  positive part of `h1 · w2 + b2`, multiplies by `w3`, adds `b3` and finally adds the input. Each stage is identified
  with the corresponding function of the specification at a pair of coordinates.
-/
import proofs.«111442_g14912126452479_cont_week2b_829_34_alg».proof.Proof.Spec
import proofs.«111442_g14912126452479_cont_week2b_829_34_alg».proof.Proof.Gen.ReferenceIdeal.Read
import Idealize.ShloMosaic.PureOps.Ideal.Laws

noncomputable section

open scoped BigOperators

namespace Cert.ReferenceIdeal.RefSpec

open Cert.ReferenceIdeal Cert.ReferenceIdeal.Read Idealize.ShloMosaic Idealize.ShloMosaic.ValueIdx

/-! ## The index functions of the three products and the broadcasts, at a pair of coordinates -/

theorem lidx_v1_ix (r : Fin 16384) (k : Fin 4096) (l : Fin 1024) : lidx_main_v1 (ix2 r k) l = ix2 r l :=
  funext fun a => Fin.ext (by match a with | ⟨0, _⟩ => rfl | ⟨1, _⟩ => rfl)

theorem ridx_v1_ix (r : Fin 16384) (k : Fin 4096) (l : Fin 1024) : ridx_main_v1 (ix2 r k) l = ix2 l k :=
  funext fun a => Fin.ext (by match a with | ⟨0, _⟩ => rfl | ⟨1, _⟩ => rfl)

theorem bias_v3_ix (r : Fin 16384) (k : Fin 4096) : idx_main_v2 (idx_main_v3 (ix2 r k)) = ix1 k :=
  funext fun a => Fin.ext (by match a with | ⟨0, _⟩ => rfl)

/-- The doubled input of the reference is the sum form. -/
theorem dbl_eq (A : Cert.Mlp.Args) (r : Fin 16384) (l : Fin 1024) :
    val_main_v0 (F := Ideal) A.x (ix2 r l) = Cert.Mlp.dblAdd A r l := by
  rw [val_main_v0_apply, Ideal.addf_def]
  rfl

/-- The first hidden layer of the reference. -/
theorem layer1 (A : Cert.Mlp.Args) (r : Fin 16384) (k : Fin 4096) :
    val_main_v5 (F := Ideal) A.x A.w1 A.b1 (ix2 r k) = Cert.Mlp.hid1 A (Cert.Mlp.dblAdd A) r k := by
  rw [val_main_v5_apply, val_main_v4_apply, val_main_v1_apply, val_main_v3_apply, val_main_v2_apply,
    val_main_call0_v0_apply, val_main_call0_cst_apply, bias_v3_ix, Ideal.maximumf_def, Ideal.addf_def,
    Ideal.ofBits_def, Ideal.ofBits_zero_f32]
  unfold Cert.Mlp.hid1
  congr 2
  refine Finset.sum_congr rfl fun l _ => ?_
  rw [lidx_v1_ix, ridx_v1_ix, dbl_eq]

theorem lidx_v6_ix (r : Fin 16384) (n : Fin 4096) (k : Fin 4096) : lidx_main_v6 (ix2 r n) k = ix2 r k :=
  funext fun a => Fin.ext (by match a with | ⟨0, _⟩ => rfl | ⟨1, _⟩ => rfl)

theorem ridx_v6_ix (r : Fin 16384) (n : Fin 4096) (k : Fin 4096) : ridx_main_v6 (ix2 r n) k = ix2 k n :=
  funext fun a => Fin.ext (by match a with | ⟨0, _⟩ => rfl | ⟨1, _⟩ => rfl)

theorem bias_v8_ix (r : Fin 16384) (n : Fin 4096) : idx_main_v7 (idx_main_v8 (ix2 r n)) = ix1 n :=
  funext fun a => Fin.ext (by match a with | ⟨0, _⟩ => rfl)

/-- The second hidden layer of the reference. -/
theorem layer2 (A : Cert.Mlp.Args) (r : Fin 16384) (n : Fin 4096) :
    val_main_v10 (F := Ideal) A.x A.w1 A.b1 A.w2 A.b2 (ix2 r n) = Cert.Mlp.hid2 A (Cert.Mlp.dblAdd A) r n := by
  rw [val_main_v10_apply, val_main_v9_apply, val_main_v6_apply, val_main_v8_apply, val_main_v7_apply,
    val_main_call1_v0_apply, val_main_call1_cst_apply, bias_v8_ix, Ideal.maximumf_def, Ideal.addf_def,
    Ideal.ofBits_def, Ideal.ofBits_zero_f32]
  unfold Cert.Mlp.hid2
  congr 2
  refine Finset.sum_congr rfl fun k _ => ?_
  rw [lidx_v6_ix, ridx_v6_ix, layer1]

theorem lidx_v11_ix (r : Fin 16384) (q : Fin 1024) (k : Fin 4096) : lidx_main_v11 (ix2 r q) k = ix2 r k :=
  funext fun a => Fin.ext (by match a with | ⟨0, _⟩ => rfl | ⟨1, _⟩ => rfl)

theorem ridx_v11_ix (r : Fin 16384) (q : Fin 1024) (k : Fin 4096) : ridx_main_v11 (ix2 r q) k = ix2 k q :=
  funext fun a => Fin.ext (by match a with | ⟨0, _⟩ => rfl | ⟨1, _⟩ => rfl)

theorem bias_v13_ix (r : Fin 16384) (q : Fin 1024) : idx_main_v12 (idx_main_v13 (ix2 r q)) = ix1 q :=
  funext fun a => Fin.ext (by match a with | ⟨0, _⟩ => rfl)

/-- The reference's result at a pair of coordinates is the whole-sum form. -/
theorem result_at (A : Cert.Mlp.Args) (r : Fin 16384) (q : Fin 1024) :
    val_main_v15 (F := Ideal) A.x A.w1 A.b1 A.w2 A.b2 A.w3 A.b3 (ix2 r q) = Cert.Mlp.whole A r q := by
  rw [val_main_v15_apply, val_main_v14_apply, val_main_v11_apply, val_main_v13_apply, val_main_v12_apply,
    bias_v13_ix, Ideal.addf_def, Ideal.addf_def]
  unfold Cert.Mlp.whole
  congr 2
  refine Finset.sum_congr rfl fun k _ => ?_
  rw [lidx_v11_ix, ridx_v11_ix, layer2]

/-- The reference computes the whole-sum form, as a function of the index. -/
theorem ref_eq (x0 : (⟨Cert.ReferenceIdeal.S16384x1024, .f32⟩ : BufTy).Contents (Elt Ideal))
    (x1 : (⟨Cert.ReferenceIdeal.S1024x4096, .f32⟩ : BufTy).Contents (Elt Ideal))
    (x2 : (⟨Cert.ReferenceIdeal.S4096, .f32⟩ : BufTy).Contents (Elt Ideal))
    (x3 : (⟨Cert.ReferenceIdeal.S4096x4096, .f32⟩ : BufTy).Contents (Elt Ideal))
    (x4 : (⟨Cert.ReferenceIdeal.S4096, .f32⟩ : BufTy).Contents (Elt Ideal))
    (x5 : (⟨Cert.ReferenceIdeal.S4096x1024, .f32⟩ : BufTy).Contents (Elt Ideal))
    (x6 : (⟨Cert.ReferenceIdeal.S1024, .f32⟩ : BufTy).Contents (Elt Ideal)) :
    Cert.ReferenceIdeal.Read.val_main_v15 (F := Ideal) x0 x1 x2 x3 x4 x5 x6
      = fun i => Cert.Mlp.whole ⟨x0, x1, x2, x3, x4, x5, x6⟩ (i 0) (i 1) := by
  funext i
  obtain ⟨r, q, rfl⟩ : ∃ r q, i = ix2 r q := ⟨i 0, i 1, eq_ix2 i⟩
  exact result_at ⟨x0, x1, x2, x3, x4, x5, x6⟩ r q

end Cert.ReferenceIdeal.RefSpec

end
-- ==== Proof.Algebra.lean ====
/-
  The blockwise form and the whole-sum form of the perceptron agree at every index, over the extended reals.

  Four facts, each small:
  * the constant the product form doubles with denotes the real `2`, and `2 * a = a + a` for every extended real `a`
    (at `⊤` and `⊥` both sides are the same infinity; on the reals it is `two_mul`), so the two doubled inputs are
    the same function;
  * the running value after block `j` is `x + b3` plus the sum of the first `j + 1` shares of the blocks (induction on
    `j`, associativity of the sum only);
  * a sum over eight blocks of `512` hidden units is the sum over all `4096` hidden units, the pair `(j, k)` being
    sent to `512 * j + k` by a bijection;
  * `(x + b3) + S = x + (S + b3)` in a commutative monoid.
  Nothing here distributes a product over a sum: the extended reals do not allow it.
-/
import proofs.«111442_g14912126452479_cont_week2b_829_34_alg».proof.Proof.Spec
import Mathlib.Data.EReal.Operations
import Mathlib.Algebra.BigOperators.Fin
import Mathlib.Algebra.BigOperators.Group.Finset.Defs
import Mathlib.Data.Fintype.BigOperators
import Mathlib.Logic.Equiv.Fin.Basic

noncomputable section

open scoped BigOperators

namespace Cert.Mlp

open Idealize.ShloMosaic Idealize.ShloMosaic.ValueIdx

/-- The pattern `0x40000000` denotes the real number `2`. -/
theorem two_eq : two = ((2 : ℝ) : EReal) := by
  simp [two, Ideal.ofBits, Ideal.ieee, -EReal.coe_mul]; norm_num

/-- Doubling by the product with `2` is doubling by the sum, at the two infinities as well. -/
theorem two_mul' (a : EReal) : two * a = a + a := by
  rw [two_eq]
  induction a using EReal.rec with
  | bot => rw [EReal.coe_mul_bot_of_pos (by norm_num), EReal.bot_add]
  | top => rw [EReal.coe_mul_top_of_pos (by norm_num), EReal.top_add_top]
  | coe a => rw [← EReal.coe_mul, ← EReal.coe_add, two_mul]

/-- The two doubled inputs are one function. -/
theorem dblMul_eq_dblAdd (A : Args) : dblMul A = dblAdd A := by
  funext r l
  exact two_mul' _

/-- The running value after block `j` in closed form: `x + b3` plus the shares of blocks `0 … j`. -/
theorem acc_eq (A : Args) (d : Fin 16384 → Fin 1024 → EReal) (r : Fin 16384) (q : Fin 1024) :
    ∀ (j : ℕ) (h : j < 8), acc A d r q j h
      = (A.x (ix2 r q) + A.b3 (ix1 q))
        + ∑ i : Fin (j + 1), part A d r q ⟨i.val, lt_of_lt_of_le i.isLt h⟩
  | 0, h => by
      rw [acc, Fin.sum_univ_one]; rfl
  | j + 1, h => by
      rw [acc, acc_eq A d r q j (Nat.lt_of_succ_lt h), Fin.sum_univ_castSucc (n := j + 1), add_assoc]
      rfl

/-- A sum over eight blocks of `512` is the sum over `4096`: `(j, k) ↦ 512 * j + k` is a bijection. -/
theorem sum_unit (f : Fin 4096 → EReal) :
    ∑ j : Fin 8, ∑ k : Fin 512, f (unit j k) = ∑ n : Fin 4096, f n := by
  have hu : ∀ p : Fin 8 × Fin 512, unit p.1 p.2 = (finProdFinEquiv : Fin 8 × Fin 512 ≃ Fin (8 * 512)) p := by
    intro p
    apply Fin.ext
    simp only [unit, finProdFinEquiv_apply_val]
    exact Nat.add_comm _ _
  calc ∑ j : Fin 8, ∑ k : Fin 512, f (unit j k)
      = ∑ p : Fin 8 × Fin 512, f (unit p.1 p.2) := (Fintype.sum_prod_type' fun j k => f (unit j k)).symm
    _ = ∑ p : Fin 8 × Fin 512, f ((finProdFinEquiv : Fin 8 × Fin 512 ≃ Fin (8 * 512)) p) :=
        Finset.sum_congr rfl fun p _ => by rw [hu p]
    _ = ∑ n : Fin 4096, f n := Equiv.sum_comp (finProdFinEquiv : Fin 8 × Fin 512 ≃ Fin (8 * 512)) f

/-- The two forms agree at every index. -/
theorem blockwise_eq_whole (A : Args) (r : Fin 16384) (q : Fin 1024) : blockwise A r q = whole A r q := by
  unfold blockwise whole
  rw [acc_eq, dblMul_eq_dblAdd]
  have hs : ∑ i : Fin (7 + 1), part A (dblAdd A) r q ⟨i.val, lt_of_lt_of_le i.isLt (by decide)⟩
      = ∑ n : Fin 4096, hid2 A (dblAdd A) r n * A.w3 (ix2 n q) := by
    rw [← sum_unit (fun n => hid2 A (dblAdd A) r n * A.w3 (ix2 n q))]
    rfl
  rw [hs, add_assoc, add_comm (A.b3 (ix1 q))]

end Cert.Mlp

end
-- ==== Proof.lean ====
/-
  The kernel computes `x + MLP(2 x)` for a three-layer perceptron with hidden width `4096` (the positive part after the
  first two layers) over a `16384 × 1024` input; the reference computes `x + MLP(x + x)`. Over the extended reals:

  * the kernel's result array is the BLOCKWISE form of the specification (Proof/Accumulate.lean, over Proof/Pieces.lean,
    Proof/Payloads.lean and Proof/Blocks.lean): per batch tile of `1024` rows the first hidden layer once, then
    `x + b3` plus the eight column blocks' shares of the last product added one after the other;
  * the reference's result is the WHOLE-SUM form (Proof/RefSpec.lean): the last product summed over all hidden units,
    the bias added afterwards;
  * the two forms agree (Proof/Algebra.lean): `2 a = a + a` on the extended reals, a sum over eight blocks of `512` is
    the sum over `4096`, and addition is associative and commutative. No product is distributed over a sum, so the
    inputs' finiteness is not used.

  The three frames are the generated ones (the reference's is its generated run with the result dropped); the ideal
  pass rewrote nothing, so `preserves` is `True`.
-/
import proofs.«111442_g14912126452479_cont_week2b_829_34_alg».proof.Defs
import proofs.«111442_g14912126452479_cont_week2b_829_34_alg».proof.Proof.Gen.Kernel
import proofs.«111442_g14912126452479_cont_week2b_829_34_alg».proof.Proof.Gen.Kernel.Skeleton
import proofs.«111442_g14912126452479_cont_week2b_829_34_alg».proof.Proof.Gen.Kernel.Launch
import proofs.«111442_g14912126452479_cont_week2b_829_34_alg».proof.Proof.Gen.Kernel.Points
import proofs.«111442_g14912126452479_cont_week2b_829_34_alg».proof.Proof.Gen.Kernel.Frame
import proofs.«111442_g14912126452479_cont_week2b_829_34_alg».proof.Proof.Gen.KernelIdeal
import proofs.«111442_g14912126452479_cont_week2b_829_34_alg».proof.Proof.Gen.KernelIdeal.Skeleton
import proofs.«111442_g14912126452479_cont_week2b_829_34_alg».proof.Proof.Gen.KernelIdeal.Launch
import proofs.«111442_g14912126452479_cont_week2b_829_34_alg».proof.Proof.Gen.KernelIdeal.Points
import proofs.«111442_g14912126452479_cont_week2b_829_34_alg».proof.Proof.Gen.KernelIdeal.Frame
import proofs.«111442_g14912126452479_cont_week2b_829_34_alg».proof.Proof.Gen.ReferenceIdeal
import proofs.«111442_g14912126452479_cont_week2b_829_34_alg».proof.Proof.Gen.Pre_finite_inputs
import proofs.«111442_g14912126452479_cont_week2b_829_34_alg».proof.Proof.Gen.KernelIdeal.Value
import proofs.«111442_g14912126452479_cont_week2b_829_34_alg».proof.Proof.Gen.ReferenceIdeal.Run
import proofs.«111442_g14912126452479_cont_week2b_829_34_alg».proof.Proof.Gen.ReferenceIdeal.Read
import proofs.«111442_g14912126452479_cont_week2b_829_34_alg».proof.Proof.Accumulate
import proofs.«111442_g14912126452479_cont_week2b_829_34_alg».proof.Proof.RefSpec
import proofs.«111442_g14912126452479_cont_week2b_829_34_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments the kernel ends at the blockwise form and the reference at the
    whole-sum form of the same arrays: equal at every entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefSpec.ref_eq,
    (hagree c).1, (hagree c).2.1, (hagree c).2.2.1, (hagree c).2.2.2.1, (hagree c).2.2.2.2.1, (hagree c).2.2.2.2.2.1,
    (hagree c).2.2.2.2.2.2]
  funext y
  exact (Cert.Mlp.blockwise_eq_whole (Cert.KernelIdeal.Acc.args m c) (y 0) (y 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
